-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16 : Shape := ⟨2, ![4096, 16]⟩
abbrev S16x4096 : Shape := ⟨2, ![16, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S4x2048x4096 .f32) (main_arg1 : FVec F S4096x16 .f32) (main_arg2 : FVec F S16x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S4x2048x4096 : Shape := ⟨3, ![4, 2048, 4096]⟩
abbrev S4096x16 : Shape := ⟨2, ![4096, 16]⟩
abbrev S16x4096 : Shape := ⟨2, ![16, 4096]⟩
abbrev S8192x4096 : Shape := ⟨2, ![8192, 4096]⟩
abbrev S1024x1024 : Shape := ⟨2, ![1024, 1024]⟩
abbrev S1024x16 : Shape := ⟨2, ![1024, 16]⟩
abbrev S16x1024 : Shape := ⟨2, ![16, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x16, .f32⟩
  | .hbm, ⟨2, _⟩ => ⟨S16x4096, .f32⟩
  | .hbm, ⟨3, _⟩ => ⟨S8192x4096, .f32⟩
  | .hbm, ⟨4, _⟩ => ⟨S4096x16, .f32⟩
  | .hbm, ⟨5, _⟩ => ⟨S16x4096, .f32⟩
  | .hbm, ⟨6, _⟩ => ⟨S8192x4096, .f32⟩
  | .hbm, ⟨7, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  transposes_S16x4096_S4096x16_1_0 : S16x4096.Transposes [1, 0] S4096x16
  transposes_S4096x16_S16x4096_1_0 : S4096x16.Transposes [1, 0] S16x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x16 : Shape := ⟨2, ![4096, 16]⟩
abbrev S16x4096 : Shape := ⟨2, ![16, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point leaves behind, case by case, as values.

  The body keeps a [1024, 1024] accumulator in a scratch buffer. At every point it adds to the accumulator the
  product of the point's x block with the product of the point's two factor blocks (the payload `k0_pay2`, a function
  of the three loaded blocks and of the accumulator as loaded); at the first point of a run of four it first stores
  the zero block (`k0_pay1`), so the accumulator it loads there is that zero block; at the last point of a run it
  copies the accumulator, as just stored, into the output block. So, with `acc` what the point before left:
    first point of a run:  scratch := k0_pay2 x at bt k0_pay1
    middle points:         scratch := k0_pay2 x at bt acc
    last point of a run:   scratch := k0_pay2 x at bt acc,  output block := the same.
  Each is read off the stores the body's run found: one store covering the whole buffer (or a covering store after
  another), read back through the whole-buffer rectangle at offset zero.
-/
import proofs.«125406_j11914239279650_1_alg».proof.Proof.Gen.KernelIdeal.Frame
import Idealize.ShloMosaic.Lib.Pipeline.Value
import Idealize.ShloMosaic.Lib.Tactic

set_option maxRecDepth 16384

noncomputable section

namespace Cert.KernelIdeal.Acc

open Idealize.ShloMosaic Idealize.ShloMosaic.TcCoe Idealize.SL.Sem
open Cert.KernelIdeal Cert.KernelIdeal.Gen

variable {F : FTy → Type} [FloatOps F]

/-- The whole-buffer rectangle starts at the origin. -/
theorem origin : (![0, 0] : Fin 2 → Nat) = fun _ => 0 := funext fun a => by fin_cases a <;> rfl

/-- First point of a run: the accumulator is reset, then the point's product is added to the zero block. -/
theorem scratch_first (c : Dev nD) (i : grid0.Coords) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x1024 .f32) (x1 : Vec F S1024x16 .f32) (x2 : Vec F S16x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, harg5.read_unread, harg7.read_unread,
    View.ld_unit_zero (S := S1024x1024) origin, View.ld_unit_zero (S := S1024x16) origin, View.ld_unit_zero (S := S16x1024) origin]

/-- A middle point: the point's product is added to what the point before left. -/
theorem scratch_middle (c : Dev nD) (i : grid0.Coords) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x1024 .f32) (x1 : Vec F S1024x16 .f32) (x2 : Vec F S16x1024 .f32) (acc : Vec F S1024x1024 .f32) :
    sout0_B_0 c i arg3 harg3 arg4 harg4 arg5 harg5 arg6 harg6 arg7 harg7 hc0 hc1 x0 x1 x2 acc = k0_pay2 x0 x1 x2 acc := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  rw [View.canon_unit_zero (S := S1024x1024) origin]
  simp only [View.readAt_eq_ld, harg3.read_unread, harg4.read_unread, harg5.read_unread, harg7.read_unread,
    View.ld_unit_zero (S := S1024x1024) origin, View.ld_unit_zero (S := S1024x16) origin, View.ld_unit_zero (S := S16x1024) origin]

/-- Last point of a run, the accumulator: as at a middle point. -/
theorem scratch_last (c : Dev nD) (i : grid0.Coords) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x16 .f32) (x2 : Vec F S16x1024 .f32) (acc : Vec F S1024x1024 .f32) :
    sout0_C_0 c i arg3 harg3 arg4 harg4 arg5 harg5 arg6 harg6 arg7 harg7 hc0 hc1 x0 x1 x2 acc = k0_pay2 x0 x1 x2 acc := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero (S := S1024x1024) origin]
  simp only [View.readAt_eq_ld, harg3.read_unread, harg4.read_unread, harg5.read_unread, harg7.read_unread,
    View.ld_unit_zero (S := S1024x1024) origin, View.ld_unit_zero (S := S1024x16) origin, View.ld_unit_zero (S := S16x1024) origin]

/-- Last point of a run, the output block: the accumulator just stored. -/
theorem output_last (c : Dev nD) (i : grid0.Coords) (arg3 : Memref sig .tc .vmem S1024x1024 .f32) (harg3 : arg3.IsWhole) (arg4 : Memref sig .tc .vmem S1024x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x1024 .f32) (x1 : Vec F S1024x16 .f32) (x2 : Vec F S16x1024 .f32) (acc : Vec F S1024x1024 .f32) :
    out0_C_3 c i arg3 harg3 arg4 harg4 arg5 harg5 arg6 harg6 arg7 harg7 hc0 hc1 x0 x1 x2 acc = k0_pay2 x0 x1 x2 acc := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero (S := S1024x1024) origin, View.readCov_unit_zero (S := S1024x1024) _ origin]
  simp only [View.readAt_eq_ld, harg3.read_unread, harg4.read_unread, harg5.read_unread, harg7.read_unread,
    View.ld_unit_zero (S := S1024x1024) origin, View.ld_unit_zero (S := S1024x16) origin, View.ld_unit_zero (S := S16x1024) origin]

end Cert.KernelIdeal.Acc

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.Payload.lean ====
/-
  One grid point's arithmetic at the ideal instance, entry by entry.

  At the ideal instance a change of float format is the identity and a matrix product into the zero accumulator is
  the plain sum of products. So the point's update of the accumulator, read at row p and column q, is
      acc(p, q) + Σ_{a < 1024} x(p, a) · (Σ_{r < 16} u(a, r) · w(r, q)),
  where x is the point's [1024, 1024] block of the input, u its [1024, 16] block of the transposed A and w its
  [16, 1024] block of the transposed B: the inner sum is entry (a, q) of the [1024, 1024] slice of the weight the
  point rebuilds, the outer sum one run of 1024 of the layer's contraction. The zero block is zero at every entry.

  Both products contract the left operand's second axis with the right operand's first; which coordinate of each
  operand an output index and a contraction index name is read off each product's dimension numbers, axis by axis.
-/
import proofs.«125406_j11914239279650_1_alg».proof.Proof.Gen.KernelIdeal.Skeleton
import proofs.«125406_j11914239279650_1_alg».proof.Proof.LibDot2
import Idealize.ShloMosaic.Lib.Pipeline.Value
import Idealize.ShloMosaic.Lib.ValueIdx
import Idealize.ShloMosaic.PureOps.Ideal.Laws

noncomputable section

namespace Cert.KernelIdeal.Acc

open Idealize.ShloMosaic Idealize.ShloMosaic.ValueIdx
open Cert.KernelIdeal Cert.KernelIdeal.Gen

/-! ## The inner product (the weight's slice): [1024, 16] by [16, 1024] -/

theorem inner_lhs_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem inner_lhs_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem inner_rhs_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem inner_rhs_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-! ## The outer product (the layer's run): [1024, 1024] by [1024, 1024] -/

theorem outer_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem outer_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem outer_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem outer_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The point's update and the zero block, at an entry -/

/-- The zero block is zero everywhere. -/
theorem zero_block_apply (j : S1024x1024.Idx) : k0_pay1 (F := Ideal) j = 0 := by
  unfold k0_pay1
  simp only [shapeCast_self]
  show Ideal.ofBits .f32 0x00000000#32 = 0
  exact Ideal.ofBits_zero_f32

/-- The point's update at (p, q): the accumulator there plus one run of the contraction. -/
theorem update_apply (x : Vec Ideal S1024x1024 .f32) (u : Vec Ideal S1024x16 .f32) (w : Vec Ideal S16x1024 .f32)
    (acc : Vec Ideal S1024x1024 .f32) (p q : Fin 1024) :
    k0_pay2 (F := Ideal) x u w acc (ix2 p q)
      = acc (ix2 p q) + ∑ a : Fin 1024, x (ix2 p a) * ∑ r : Fin 16, u (ix2 a r) * w (ix2 r q) := by
  unfold k0_pay2
  simp only [shapeCast_self]
  refine (addf_apply _ _ _).trans ?_
  refine congrArg (acc (ix2 p q) + ·) ?_
  refine (Cert.Lib.Dot2.matmul_zero_ix2 dot_S1024x1024_S1024x1024_S1024x1024_1_0_0_1_n_n none rfl rfl
    outer_lhs_0 outer_lhs_1 outer_rhs_0 outer_rhs_1 _ _ p q).trans ?_
  refine Finset.sum_congr rfl fun a _ => ?_
  refine congrArg (x (ix2 p a) * ·) ?_
  exact Cert.Lib.Dot2.matmul_zero_ix2 dot_S1024x16_S16x1024_S1024x1024_1_0_0_1_n_n none rfl rfl
    inner_lhs_0 inner_lhs_1 inner_rhs_0 inner_rhs_1 _ _ a q

end Cert.KernelIdeal.Acc

end
-- ==== Proof.Spec.lean ====
/-
  The low-rank linear layer as one function of its three arguments, and the one regrouping law that joins the
  blocked product to it.

  For x : [4, 2048, 4096], B : [4096, 16], A : [16, 4096] the layer's value at (b, s, o) is
      Σ_{i < 4096} x(b, s, i) · (Σ_{r < 16} B(o, r) · A(r, i)),
  the inner sum being entry (o, i) of the weight B·A. A blocked evaluation walks the contraction index i in four
  runs of 1024: i = 1024·k + a. On the extended reals addition is commutative and associative, so the sum over
  i < 4096 is the sum over k < 4 of the sums over a < 1024 (no distributivity, hence no finiteness, is used), and
  the product of two factors may be taken in either order.

  Entries are read through accessors indexed by natural numbers (zero outside the shape), so that an offset such as
  1024·k + a needs no bound carried beside it.
-/
import Idealize.ShloMosaic.Lib.ValueIdx
import Idealize.ShloMosaic.PureOps.Ideal.Laws
import Mathlib.Algebra.BigOperators.Fin
import Mathlib.Logic.Equiv.Fin.Basic

noncomputable section

namespace Cert.LowRank

open Idealize.ShloMosaic Idealize.ShloMosaic.ValueIdx

/-- Entry (i, j) of a rank-2 array, by natural-number coordinates; zero outside the shape. -/
def rd2 {n0 n1 : Nat} (v : (⟨2, ![n0, n1]⟩ : Shape).Idx → EReal) (i j : Nat) : EReal :=
  if h : i < n0 ∧ j < n1 then v (ix2 ⟨i, h.1⟩ ⟨j, h.2⟩) else 0

/-- Entry (i, j, k) of a rank-3 array, by natural-number coordinates; zero outside the shape. -/
def rd3 {n0 n1 n2 : Nat} (v : (⟨3, ![n0, n1, n2]⟩ : Shape).Idx → EReal) (i j k : Nat) : EReal :=
  if h : i < n0 ∧ j < n1 ∧ k < n2 then v (ix3 ⟨i, h.1⟩ ⟨j, h.2.1⟩ ⟨k, h.2.2⟩) else 0

theorem rd2_val {n0 n1 : Nat} (v : (⟨2, ![n0, n1]⟩ : Shape).Idx → EReal) (i : Fin n0) (j : Fin n1) :
    rd2 v i.val j.val = v (ix2 i j) := by
  unfold rd2; rw [dif_pos ⟨i.isLt, j.isLt⟩]

theorem rd3_val {n0 n1 n2 : Nat} (v : (⟨3, ![n0, n1, n2]⟩ : Shape).Idx → EReal) (i : Fin n0) (j : Fin n1) (k : Fin n2) :
    rd3 v i.val j.val k.val = v (ix3 i j k) := by
  unfold rd3; rw [dif_pos ⟨i.isLt, j.isLt, k.isLt⟩]

/-- An entry read at in-range natural coordinates is the entry at any index with those coordinates. -/
theorem rd2_of_val {n0 n1 : Nat} (v : (⟨2, ![n0, n1]⟩ : Shape).Idx → EReal) (y : (⟨2, ![n0, n1]⟩ : Shape).Idx) (i j : Nat)
    (hi : (y 0).val = i) (hj : (y 1).val = j) : v y = rd2 v i j := by
  subst hi; subst hj
  exact (congrArg v (eq_ix2 y)).trans (rd2_val v (y 0) (y 1)).symm

theorem rd3_of_val {n0 n1 n2 : Nat} (v : (⟨3, ![n0, n1, n2]⟩ : Shape).Idx → EReal) (y : (⟨3, ![n0, n1, n2]⟩ : Shape).Idx)
    (i j k : Nat) (hi : (y 0).val = i) (hj : (y 1).val = j) (hk : (y 2).val = k) : v y = rd3 v i j k := by
  subst hi; subst hj; subst hk
  exact (congrArg v (eq_ix3 y)).trans (rd3_val v (y 0) (y 1) (y 2)).symm

/-- A sum over an index below m·n is the sum over its m runs of length n: i = n·k + a. -/
theorem sum_runs {α : Type*} [AddCommMonoid α] (m n : Nat) (f : Nat → α) :
    ∑ i : Fin (m * n), f i.val = ∑ k ∈ Finset.range m, ∑ a : Fin n, f (n * k + a.val) := by
  rw [Finset.sum_range, ← Equiv.sum_comp (finProdFinEquiv : Fin m × Fin n ≃ Fin (m * n)) (fun i => f i.val),
    Fintype.sum_prod_type]
  refine Finset.sum_congr rfl fun k _ => Finset.sum_congr rfl fun a _ => ?_
  rw [finProdFinEquiv_apply_val, Nat.add_comm]

/-- The layer's value: Σ_i x(b, s, i) · Σ_r B(o, r) · A(r, i). -/
def layer (x : (⟨3, ![4, 2048, 4096]⟩ : Shape).Idx → EReal) (B : (⟨2, ![4096, 16]⟩ : Shape).Idx → EReal)
    (A : (⟨2, ![16, 4096]⟩ : Shape).Idx → EReal) : (⟨3, ![4, 2048, 4096]⟩ : Shape).Idx → EReal :=
  fun j => ∑ i : Fin 4096, x (ix3 (j 0) (j 1) i) * ∑ r : Fin 16, B (ix2 (j 2) r) * A (ix2 r i)

/-- The blocked evaluation: the contraction walked in four runs of 1024, the inner factors in the other order. -/
def blocked (x : (⟨3, ![4, 2048, 4096]⟩ : Shape).Idx → EReal) (B : (⟨2, ![4096, 16]⟩ : Shape).Idx → EReal)
    (A : (⟨2, ![16, 4096]⟩ : Shape).Idx → EReal) (b s o : Nat) : EReal :=
  ∑ k ∈ Finset.range 4, ∑ a : Fin 1024, rd3 x b s (1024 * k + a.val) * ∑ r : Fin 16, rd2 A r.val (1024 * k + a.val) * rd2 B o r.val

/-- The two are one number at every entry. -/
theorem blocked_eq_layer (x : (⟨3, ![4, 2048, 4096]⟩ : Shape).Idx → EReal) (B : (⟨2, ![4096, 16]⟩ : Shape).Idx → EReal)
    (A : (⟨2, ![16, 4096]⟩ : Shape).Idx → EReal) (b : Fin 4) (s : Fin 2048) (o : Fin 4096) :
    blocked x B A b.val s.val o.val = layer x B A (ix3 b s o) := by
  unfold blocked layer
  rw [← sum_runs 4 1024 (fun i => rd3 x b.val s.val i * ∑ r : Fin 16, rd2 A r.val i * rd2 B o.val r.val)]
  refine Finset.sum_congr rfl fun i _ => ?_
  rw [rd3_val]
  refine congrArg (x (ix3 b s i) * ·) (Finset.sum_congr rfl fun r _ => ?_)
  rw [rd2_val, rd2_val, mul_comm]

end Cert.LowRank

end
-- ==== Proof.Blocks.lean ====
/-
  Where a grid point's blocks sit in the arrays, and what those arrays are of the arguments.

  Before the grid runs, the host flattens x : [4, 2048, 4096] to [8192, 4096] (row 2048·b + s is (b, s)) and
  transposes the two factors: the region's second operand is Aᵀ : [4096, 16] and its third Bᵀ : [16, 4096].
  The grid has 8·4·4 points; point t has row tile t / 16, column tile (t / 4) mod 4 and contraction run t mod 4.
  At point t the body sees
    rows 1024·(t/16) …, columns 1024·(t mod 4) … of the flattened x,
    rows 1024·(t mod 4) … of Aᵀ (all 16 columns),
    columns 1024·((t/4) mod 4) … of Bᵀ (all 16 rows),
  and the output block is rows 1024·(t/16) …, columns 1024·((t/4) mod 4) … of the result. A block's coordinate in
  its array is always block index · block size + the coordinate inside the block.
-/
import proofs.«125406_j11914239279650_1_alg».proof.Proof.Gen.KernelIdeal.Frame
import proofs.«125406_j11914239279650_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen Cert.LowRank

variable (m : (ℓ : Loc nD τ sig) → Buf (Elt Ideal) ℓ)

/-! ## The arguments as launched, and the arrays the region finds -/

/-- x : [4, 2048, 4096]. -/
abbrev argX (c : Dev nD) : S4x2048x4096.Idx → EReal := m ((c : Thread nD τ).loc main_arg0)
/-- B : [4096, 16]. -/
abbrev argB (c : Dev nD) : S4096x16.Idx → EReal := m ((c : Thread nD τ).loc main_arg1)
/-- A : [16, 4096]. -/
abbrev argA (c : Dev nD) : S16x4096.Idx → EReal := m ((c : Thread nD τ).loc main_arg2)

/-- x flattened to [8192, 4096]. -/
abbrev flatX (c : Dev nD) : S8192x4096.Idx → EReal := V m c main_v0
/-- Aᵀ : [4096, 16]. -/
abbrev transA (c : Dev nD) : S4096x16.Idx → EReal := V m c main_v1
/-- Bᵀ : [16, 4096]. -/
abbrev transB (c : Dev nD) : S16x4096.Idx → EReal := V m c main_v2

theorem flatX_eq (c : Dev nD) :
    flatX m c = shapeCast S8192x4096 (argX m c) shapeCasts_S4x2048x4096_S8192x4096 := by
  show StableHlo.after hostOps0 (fun b => m (c, b)) (Proc.devRef .tc main_v0) = _
  after_results
  rfl

theorem transA_eq (c : Dev nD) :
    transA m c = transpose S4096x16 [1, 0] (argA m c) transposes_S16x4096_S4096x16_1_0 := by
  show StableHlo.after hostOps0 (fun b => m (c, b)) (Proc.devRef .tc main_v1) = _
  after_results

theorem transB_eq (c : Dev nD) :
    transB m c = transpose S16x4096 [1, 0] (argB m c) transposes_S4096x16_S16x4096_1_0 := by
  show StableHlo.after hostOps0 (fun b => m (c, b)) (Proc.devRef .tc main_v2) = _
  after_results

/-- Row M of the flattened x is (M / 2048, M mod 2048) of x. -/
theorem flatX_rd (c : Dev nD) (M k : Nat) (hM : M < 8192) (hk : k < 4096) :
    rd2 (flatX m c) M k = rd3 (argX m c) (M / 2048) (M % 2048) k := by
  rw [flatX_eq]
  unfold rd2
  rw [dif_pos ⟨hM, hk⟩]
  refine (shapeCast_apply (argX m c) shapeCasts_S4x2048x4096_S8192x4096 (ix2 ⟨M, hM⟩ ⟨k, hk⟩)
    (ix3 ⟨M / 2048, by omega⟩ ⟨M % 2048, by omega⟩ ⟨k, hk⟩) ?_).trans ?_
  · rw [Shape.rowMajor_val_three, Shape.rowMajor_val_two]
    show (M / 2048 * 2048 + M % 2048) * 4096 + k = M * 4096 + k
    omega
  · exact (rd3_val (argX m c) ⟨M / 2048, by omega⟩ ⟨M % 2048, by omega⟩ ⟨k, hk⟩).symm

/-- Entry (k, r) of Aᵀ is entry (r, k) of A. -/
theorem transA_rd (c : Dev nD) (k r : Nat) (hk : k < 4096) (hr : r < 16) :
    rd2 (transA m c) k r = rd2 (argA m c) r k := by
  rw [transA_eq]
  unfold rd2
  rw [dif_pos ⟨hk, hr⟩, dif_pos ⟨hr, hk⟩]
  exact transpose_apply [1, 0] (argA m c) transposes_S16x4096_S4096x16_1_0 (ix2 ⟨k, hk⟩ ⟨r, hr⟩) (ix2 ⟨r, hr⟩ ⟨k, hk⟩)
    (fun b => by match b with | ⟨0, _⟩ => rfl | ⟨1, _⟩ => rfl)

/-- Entry (r, n) of Bᵀ is entry (n, r) of B. -/
theorem transB_rd (c : Dev nD) (r n : Nat) (hr : r < 16) (hn : n < 4096) :
    rd2 (transB m c) r n = rd2 (argB m c) n r := by
  rw [transB_eq]
  unfold rd2
  rw [dif_pos ⟨hr, hn⟩, dif_pos ⟨hn, hr⟩]
  exact transpose_apply [1, 0] (argB m c) transposes_S4096x16_S16x4096_1_0 (ix2 ⟨r, hr⟩ ⟨n, hn⟩) (ix2 ⟨n, hn⟩ ⟨r, hr⟩)
    (fun b => by match b with | ⟨0, _⟩ => rfl | ⟨1, _⟩ => rfl)

/-! ## The windows' block indices, decided once over the grid -/

theorem tile_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem tile_a : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem tile_b : ∀ t : Fin cfg0.N, win0_2.index t (0 : Fin 2) = 0 ∧ win0_2.index t (1 : Fin 2) = t.val / 4 % 4 :=
  (by decide +kernel : ∀ t : Fin grid0.N, win0_2.index t (0 : Fin 2) = 0 ∧ win0_2.index t (1 : Fin 2) = t.val / 4 % 4)
theorem tile_o : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-! ## The input blocks, named by their literal types, at an entry -/

abbrev blkX (c : Dev nD) (t : Fin cfg0.N) : Vec Ideal S1024x1024 .f32 := iblk m c 0 t
abbrev blkA (c : Dev nD) (t : Fin cfg0.N) : Vec Ideal S1024x16 .f32 := iblk m c 1 t
abbrev blkB (c : Dev nD) (t : Fin cfg0.N) : Vec Ideal S16x1024 .f32 := iblk m c 2 t

theorem blkX_rd (c : Dev nD) (t : Fin cfg0.N) (p a : Fin 1024) :
    blkX m c t (ix2 p a) = rd2 (flatX m c) (1024 * (t.val / 16) + p.val) (1024 * (t.val % 4) + a.val) := by
  have hi := tile_x t
  show flatX m c (((cfg0.win 0).blk t).view.emb (ix2 p a)) = _
  refine rd2_of_val (flatX m c) _ _ _ ?_ ?_
  · show win0_0.index t 0 * 1024 + 1 * p.val = _
    rw [hi.1]; omega
  · show win0_0.index t 1 * 1024 + 1 * a.val = _
    rw [hi.2]; omega

theorem blkA_rd (c : Dev nD) (t : Fin cfg0.N) (a : Fin 1024) (r : Fin 16) :
    blkA m c t (ix2 a r) = rd2 (transA m c) (1024 * (t.val % 4) + a.val) r.val := by
  have hi := tile_a t
  show transA m c (((cfg0.win 1).blk t).view.emb (ix2 a r)) = _
  refine rd2_of_val (transA m c) _ _ _ ?_ ?_
  · show win0_1.index t 0 * 1024 + 1 * a.val = _
    rw [hi.1]; omega
  · show win0_1.index t 1 * 16 + 1 * r.val = _
    rw [hi.2]; omega

theorem blkB_rd (c : Dev nD) (t : Fin cfg0.N) (r : Fin 16) (q : Fin 1024) :
    blkB m c t (ix2 r q) = rd2 (transB m c) r.val (1024 * (t.val / 4 % 4) + q.val) := by
  have hi := tile_b t
  show transB m c (((cfg0.win 2).blk t).view.emb (ix2 r q)) = _
  refine rd2_of_val (transB m c) _ _ _ ?_ ?_
  · show win0_2.index t 0 * 16 + 1 * r.val = _
    rw [hi.1]; omega
  · show win0_2.index t 1 * 1024 + 1 * q.val = _
    rw [hi.2]; omega

end Cert.KernelIdeal.Acc

end
-- ==== Proof.Fold.lean ====
/-
  The accumulator over a run of four grid points, as a sum.

  Points 4k, 4k + 1, 4k + 2, 4k + 3 share a row tile and a column tile and walk the four runs of the contraction.
  The first resets the accumulator to the zero block and adds its run's products; each later one adds its own to what
  the point before left; the last also copies the accumulator to the output block. So after point t of a run the
  accumulator holds, entry by entry, zero plus the sum of the addends of the run's points up to t — the fold of the
  per-point update, unrolled — and at the run's last point the output block holds the same.

  The addend of point n at entry (p, q) of the block is one run of 1024 of the contraction, at row
  1024·(n/16) + p and column 1024·((n/4) mod 4) + q of the result, over contraction indices 1024·(n mod 4) + a.
-/
import proofs.«125406_j11914239279650_1_alg».proof.Proof.Pieces
import proofs.«125406_j11914239279650_1_alg».proof.Proof.Payload
import proofs.«125406_j11914239279650_1_alg».proof.Proof.Blocks

set_option maxRecDepth 16384

noncomputable section

namespace Cert.KernelIdeal.Acc

open Idealize.ShloMosaic Idealize.ShloMosaic.TcCoe Idealize.SL.Sem Idealize.ShloMosaic.ValueIdx
open Cert.KernelIdeal Cert.KernelIdeal.Gen Cert.LowRank

variable (m : (ℓ : Loc nD τ sig) → Buf (Elt Ideal) ℓ)

/-- Run s of the contraction at row M and column N of the result:
    Σ_{a < 1024} x(M, 1024 s + a) · Σ_{r < 16} Aᵀ(1024 s + a, r) · Bᵀ(r, N). -/
def runSum (c : Dev nD) (M N s : Nat) : EReal :=
  ∑ a : Fin 1024, rd2 (flatX m c) M (1024 * s + a.val)
    * ∑ r : Fin 16, rd2 (transA m c) (1024 * s + a.val) r.val * rd2 (transB m c) r.val N

theorem runSum_congr (c : Dev nD) {M M' N N' s s' : Nat} (hM : M = M') (hN : N = N') (hs : s = s') :
    runSum m c M N s = runSum m c M' N' s' := by subst hM; subst hN; subst hs; rfl

/-- What point n adds at entry (p, q) of its block. -/
def addend (c : Dev nD) (n p q : Nat) : EReal :=
  runSum m c (1024 * (n / 16) + p) (1024 * (n / 4 % 4) + q) (n % 4)

/-- The point's update of an accumulator, entry by entry: the accumulator plus the point's addend. -/
theorem update_at (c : Dev nD) (t : Fin cfg0.N) (acc : Vec Ideal S1024x1024 .f32) (i : S1024x1024.Idx) :
    k0_pay2 (F := Ideal) (blkX m c t) (blkA m c t) (blkB m c t) acc i = acc i + addend m c t.val (i 0).val (i 1).val := by
  obtain ⟨p, q, rfl⟩ : ∃ (p q : Fin 1024), i = ix2 p q := ⟨i 0, i 1, eq_ix2 i⟩
  refine (update_apply (blkX m c t) (blkA m c t) (blkB m c t) acc p q).trans ?_
  show acc (ix2 p q) + _ = acc (ix2 p q) + addend m c t.val p.val q.val
  unfold addend runSum
  refine congrArg (acc (ix2 p q) + ·) (Finset.sum_congr rfl fun a _ => ?_)
  rw [blkX_rd m c t p a]
  refine congrArg (_ * ·) (Finset.sum_congr rfl fun r _ => ?_)
  rw [blkA_rd m c t a r, blkB_rd m c t r q]

/-- The accumulator after point n. -/
abbrev scratchAt (c : Dev nD) (n : Nat) (h : n < cfg0.N) : Vec Ideal S1024x1024 .f32 := (outsAt0 m c n h).2

/-- At the first point of a run the accumulator is the update of the zero block. -/
theorem scratch_reset (c : Dev nD) (n : Nat) (h : n < cfg0.N) (h0 : n % 4 = 0) :
    scratchAt m c n h
      = k0_pay2 (F := Ideal) (blkX m c ⟨n, h⟩) (blkA m c ⟨n, h⟩) (blkB m c ⟨n, h⟩) (k0_pay1 (F := Ideal)) := by
  have h1 : ¬n % 4 = 3 := by omega
  show (outsAt0 m c n h).2 = _
  rw [outsAt0_A m c ⟨n, h⟩ h0 h1]
  dsimp only
  exact scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _)
    ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At every other point it is the update of what the point before left. -/
theorem scratch_step (c : Dev nD) (n : Nat) (h : n + 1 < cfg0.N) (hne : ¬(n + 1) % 4 = 0) :
    scratchAt m c (n + 1) h
      = k0_pay2 (F := Ideal) (blkX m c ⟨n + 1, h⟩) (blkA m c ⟨n + 1, h⟩) (blkB m c ⟨n + 1, h⟩)
          (scratchAt m c n (Nat.lt_of_succ_lt h)) := by
  show (outsAt0 m c (n + 1) h).2 = _
  by_cases h1 : (n + 1) % 4 = 3
  · rw [outsAt0_C m c ⟨n + 1, h⟩ hne h1]
    dsimp only
    exact scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun hh => hne ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩)
      (outsAt0 m c n (Nat.lt_of_succ_lt h)).2
  · rw [outsAt0_B m c ⟨n + 1, h⟩ hne h1]
    dsimp only
    exact scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _)
      (fun hh => hne ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩)
      (outsAt0 m c n (Nat.lt_of_succ_lt h)).2

/-- At the last point of a run the output block is the accumulator. -/
theorem output_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (output_last (F := Ideal) c (grid0.coords t) (ms0_0 t) (hs0_0 t) (ms0_1 t) (hs0_1 t) (ms0_2 t) (hs0_2 t) (ms0_3 t) (hs0_3 t) scM0_0 (Memref.isWhole_whole _)
      (fun hh => h0 ((hcond0_0 t).mp hh)) ((hcond0_1 t).mpr h1) (iblk m c 0 t) (iblk m c 1 t) (iblk m c 2 t) _).trans
    (scratch_last (F := Ideal) c (grid0.coords t) (ms0_0 t) (hs0_0 t) (ms0_1 t) (hs0_1 t) (ms0_2 t) (hs0_2 t) (ms0_3 t) (hs0_3 t) scM0_0 (Memref.isWhole_whole _)
      (fun hh => h0 ((hcond0_0 t).mp hh)) ((hcond0_1 t).mpr h1) (iblk m c 0 t) (iblk m c 1 t) (iblk m c 2 t) _).symm

/-- THE FOLD, unrolled: after the last point t of a run the accumulator is zero plus the four addends of the run. -/
theorem scratch_fold (c : Dev nD) (t : Nat) (ht : t < cfg0.N) (h3 : t % 4 = 3) (i : S1024x1024.Idx) :
    scratchAt m c t ht i = 0 + ∑ s ∈ Finset.range 4, addend m c (4 * (t / 4) + s) (i 0).val (i 1).val := by
  have hN : cfg0.N = 128 := N_0
  have h' : 4 * (t / 4) + t % 4 < cfg0.N := by omega
  have e := Pipeline.eq_accAt_of_mod (fun n h => scratchAt m c n h) 4
    (fun n h => k0_pay2 (F := Ideal) (blkX m c ⟨n, h⟩) (blkA m c ⟨n, h⟩) (blkB m c ⟨n, h⟩) (k0_pay1 (F := Ideal)))
    (fun n h acc => k0_pay2 (F := Ideal) (blkX m c ⟨n, h⟩) (blkA m c ⟨n, h⟩) (blkB m c ⟨n, h⟩) acc)
    (fun n h h0 => scratch_reset m c n h h0) (fun n h hne => scratch_step m c n h hne) (by decide) t ht h'
  have u := Pipeline.accAt_add_apply
    (fun n h => k0_pay2 (F := Ideal) (blkX m c ⟨n, h⟩) (blkA m c ⟨n, h⟩) (blkB m c ⟨n, h⟩) (k0_pay1 (F := Ideal)))
    (fun n h acc => k0_pay2 (F := Ideal) (blkX m c ⟨n, h⟩) (blkA m c ⟨n, h⟩) (blkB m c ⟨n, h⟩) acc)
    (fun _ => (0 : EReal)) (fun n (j : S1024x1024.Idx) => addend m c n (j 0).val (j 1).val) (4 * (t / 4)) 3
    (fun h j => (update_at m c ⟨4 * (t / 4), h⟩ (k0_pay1 (F := Ideal)) j).trans (by rw [zero_block_apply]))
    (fun n h acc j _ _ => update_at m c ⟨n, h⟩ acc j)
    (t % 4) (by omega) h' i
  exact (congrFun e i).trans (u.trans (by rw [h3]))

end Cert.KernelIdeal.Acc

end
-- ==== Proof.Final.lean ====
/-
  The result of the whole program at the ideal instance: the layer's value.

  Only the last point of each run of four writes its output block back, and it writes the accumulator: zero plus the
  four addends of the run, which at entry (p, q) of the block are the four runs of the contraction at row
  1024·(t/16) + p and column 1024·((t/4) mod 4) + q. So every write-back is its block of ONE [8192, 4096] array,
      result(M, N) = 0 + Σ_{s < 4} Σ_{a < 1024} x(M, 1024 s + a) · Σ_{r < 16} Aᵀ(1024 s + a, r) · Bᵀ(r, N),
  and the 8·4 write-back blocks tile that array (entry (M, N) lies in the block of the point with row tile M / 1024 and
  column tile N / 1024, at its run's last step), so the array ends holding it. The host then reads the array as
  [4, 2048, 4096], entry (b, s, o) from row 2048·b + s; undoing the flattening of x and the two transposes, that
  entry is the blocked evaluation of the layer, which is the layer's value.
-/
import proofs.«125406_j11914239279650_1_alg».proof.Proof.Fold
import Idealize.ShloMosaic.Lib.Pipeline.Value
import Idealize.ShloMosaic.Lib.StableHlo.Run

set_option maxRecDepth 16384

noncomputable section

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen Cert.LowRank

variable (m : (ℓ : Loc nD τ sig) → Buf (Elt Ideal) ℓ) (ρ : Dev nD → PrngReg)

/-- The [8192, 4096] array the region leaves: zero plus the four runs of the contraction. -/
def result (c : Dev nD) : S8192x4096.Idx → EReal :=
  fun y => 0 + ∑ s ∈ Finset.range 4, runSum m c (y 0).val (y 1).val s

/-- What a write-back point writes is its block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  have hi := tile_o t
  show (cfg0.win 3).cut (grid0.coords t) ((dats m 0 c).after 3 t) = _
  rw [after0_3, output_eq_scratch m c t h0 h3]
  funext j
  show scratchAt m c t.val t.isLt j = result m c (((cfg0.win 3).blk t).view.emb j)
  rw [scratch_fold m c t.val t.isLt h3 j]
  unfold result
  refine congrArg (0 + ·) (Finset.sum_congr rfl fun s hs => ?_)
  have hs4 : s < 4 := Finset.mem_range.mp hs
  unfold addend
  refine runSum_congr m c ?_ ?_ ?_
  · show 1024 * ((4 * (t.val / 4) + s) / 16) + (j 0).val = win0_3.index t 0 * 1024 + 1 * (j 0).val
    rw [hi.1]; omega
  · show 1024 * ((4 * (t.val / 4) + s) / 4 % 4) + (j 1).val = win0_3.index t 1 * 1024 + 1 * (j 1).val
    rw [hi.2]; omega
  · omega

/-- Every entry of the array lies in some write-back point's block. -/
theorem covered (c : Dev nD) (i : S8192x4096.Idx) :
    ∃ t : Fin cfg0.N, (cfg0.win 3).flush t = true ∧ i ∈ ((cfg0.win 3).blk t).view.set := by
  have hN : cfg0.N = 128 := N_0
  have hi0 : (i 0).val < 8192 := (i 0).isLt
  have hi1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  have ho := tile_o t
  refine ⟨t, (flush0_3 t).mpr (by omega), ?_⟩
  show i ∈ ((View.whole main_v3).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [ho.1]; omega
  | ⟨1, _⟩ =>
    show win0_3.index t (1 : Fin 2) * 1024 ≤ (i 1).val ∧ (i 1).val < win0_3.index t (1 : Fin 2) * 1024 + 1024
    rw [ho.2]; omega

/-- So the region's output array ends holding `result`. -/
theorem final (c : Dev nD) : (dats m 0 c).arrAt 3 cfg0.N = result m c :=
  (dats m 0 c).arrAt_eq_of_cover 3 (result m c) (flushed_eq m c) (covered c)

/-- After the host's closing reshape, the program's result is `result` read as [4, 2048, 4096]. -/
theorem tail_eq (c : Dev nD) :
    Pipeline.afterTail₀ cfgs (dats m) 0 (V0 m) [hostOps1] c main_v4
      = shapeCast S4x2048x4096 (result m c) shapeCasts_S8192x4096_S4x2048x4096 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = result m c :=
    (Pipeline.withArrays_arr spec0 launch0.win.arr_inj c (V0 m c) (fun w => (dats m 0 c).arrAt w cfg0.N) 3).trans (final m c)
  rw [e]
  rfl

/-- Entry (b, s, o) of that reading is the layer's value there: row 2048·b + s of the flattened x is (b, s) of x,
    Aᵀ and Bᵀ are read back as A and B, and the four runs of 1024 are the whole contraction. -/
theorem value_apply (c : Dev nD) (b : Fin 4) (s : Fin 2048) (o : Fin 4096) :
    shapeCast S4x2048x4096 (result m c) shapeCasts_S8192x4096_S4x2048x4096 (ix3 b s o)
      = layer (argX m c) (argB m c) (argA m c) (ix3 b s o) := by
  have hb : b.val < 4 := b.isLt
  have hs : s.val < 2048 := s.isLt
  have ho : o.val < 4096 := o.isLt
  refine (shapeCast_apply (result m c) shapeCasts_S8192x4096_S4x2048x4096 (ix3 b s o)
    (ix2 ⟨2048 * b.val + s.val, by omega⟩ o) ?_).trans ?_
  · rw [Shape.rowMajor_val_two, Shape.rowMajor_val_three]
    show (2048 * b.val + s.val) * 4096 + o.val = (b.val * 2048 + s.val) * 4096 + o.val
    omega
  · rw [← blocked_eq_layer]
    unfold result blocked
    rw [zero_add]
    refine Finset.sum_congr rfl fun k hk => ?_
    have hk4 : k < 4 := Finset.mem_range.mp hk
    unfold runSum
    refine Finset.sum_congr rfl fun a _ => ?_
    have ha : a.val < 1024 := a.isLt
    show rd2 (flatX m c) (2048 * b.val + s.val) (1024 * k + a.val) * _ = _
    rw [flatX_rd m c (2048 * b.val + s.val) (1024 * k + a.val) (by omega) (by omega),
      show (2048 * b.val + s.val) / 2048 = b.val from by omega, show (2048 * b.val + s.val) % 2048 = s.val from by omega]
    refine congrArg (rd3 (argX m c) b.val s.val (1024 * k + a.val) * ·) (Finset.sum_congr rfl fun r _ => ?_)
    show rd2 (transA m c) (1024 * k + a.val) r.val * rd2 (transB m c) r.val o.val = _
    rw [transA_rd m c (1024 * k + a.val) r.val (by omega) r.isLt, transB_rd m c r.val o.val r.isLt ho]

/-- The program's result is the layer's value of its arguments. -/
theorem value_eq (c : Dev nD) :
    shapeCast S4x2048x4096 (result m c) shapeCasts_S8192x4096_S4x2048x4096 = layer (argX m c) (argB m c) (argA m c) := by
  funext j
  rw [eq_ix3 j]
  exact value_apply m c (j 0) (j 1) (j 2)

/-- The run, read: every weakly fair execution terminates with the result array at the layer's value of the
    arguments as launched, and the arguments unchanged. -/
theorem run : θ_run defs (onTc (τ := τ) (main (F := Ideal))) ⟨m, fun _ => 0, ρ⟩ fun r => ∀ c : Dev nD,
      r.2.mem ((c.tc : Thread nD τ).loc main_v4) = layer (argX m c) (argB m c) (argA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans ((tail_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefValue.lean ====
/-
  The reference computes the layer's value.

  jnp's reference is two contractions: W = B·A, entry (o, i) the sum over r < 16 of B(o, r)·A(r, i); then
  'bsi,oi->bso', entry (b, s, o) the sum over i < 4096 of x(b, s, i)·W(o, i). At the ideal instance each is the plain
  sum of products at an index, so the result is `layer x B A` entry by entry once the composed operand indices are
  named by their coordinates.
-/
import proofs.«125406_j11914239279650_1_alg».proof.Proof.Gen.ReferenceIdeal.Read
import proofs.«125406_j11914239279650_1_alg».proof.Proof.Spec

noncomputable section

namespace Cert.ReferenceIdeal.RefValue

open Idealize.ShloMosaic Idealize.ShloMosaic.ValueIdx
open Cert.ReferenceIdeal Cert.ReferenceIdeal.Read Cert.LowRank

/-- The reference's result stage is the layer's value. -/
theorem stage_eq_layer (x : S4x2048x4096.Idx → EReal) (B : S4096x16.Idx → EReal) (A : S16x4096.Idx → EReal) :
    val_main_v1 (F := Ideal) x B A = layer x B A := by
  funext i
  rw [val_main_v1_apply]
  unfold layer
  refine Finset.sum_congr rfl fun k _ => ?_
  rw [val_main_v0_apply]
  have e0 : lidx_main_v1 i k = ix3 (i 0) (i 1) k :=
    funext fun a => Fin.ext (by match a with | ⟨0, _⟩ => rfl | ⟨1, _⟩ => rfl | ⟨2, _⟩ => rfl)
  have e1 : ∀ r : Fin 16, lidx_main_v0 (ridx_main_v1 i k) r = ix2 (i 2) r := fun r =>
    funext fun a => Fin.ext (by match a with | ⟨0, _⟩ => rfl | ⟨1, _⟩ => rfl)
  have e2 : ∀ r : Fin 16, ridx_main_v0 (ridx_main_v1 i k) r = ix2 r k := fun r =>
    funext fun a => Fin.ext (by match a with | ⟨0, _⟩ => rfl | ⟨1, _⟩ => rfl)
  rw [e0]
  refine congrArg (x (ix3 (i 0) (i 1) k) * ·) (Finset.sum_congr rfl fun r _ => ?_)
  rw [e1 r, e2 r]
  rfl

end Cert.ReferenceIdeal.RefValue

end
-- ==== Proof.lean ====
/-
  A low-rank linear layer, computed block by block, against its two-contraction definition.

  The kernel never forms the weight W = B·A : [4096, 4096]. Over a grid of row tiles, column tiles and runs of the
  contraction it rebuilds one [1024, 1024] slice of Wᵀ from the rank-16 factors, multiplies the matching block of the
  flattened input by it, and accumulates the four runs of a tile in a scratch block that is zeroed at the first run
  and copied out at the last. Read over the extended reals, where a change of float format is the identity and a
  matrix product is the plain sum of products, the output entry (b, s, o) is
      Σ_{k < 4} Σ_{a < 1024} x(b, s, 1024k + a) · Σ_{r < 16} A(r, 1024k + a) · B(o, r),
  and the reference's is  Σ_{i < 4096} x(b, s, i) · Σ_{r < 16} B(o, r) · A(r, i).  These are one number: a sum over
  4096 indices is the sum over its four runs of 1024, and a product of two factors commutes. Neither step moves a
  factor across a sum, so nothing is asked of the inputs beyond what the claim grants.

  The three programs terminate without fault and leave their arguments unchanged; the idealization rewrote no
  operation; the value claim pairs the kernel's run, with its result named as the layer's value, with the reference's
  run, whose result is the same function of arguments that agree.
-/
import proofs.«125406_j11914239279650_1_alg».proof.Defs
import proofs.«125406_j11914239279650_1_alg».proof.Proof.Gen.Kernel
import proofs.«125406_j11914239279650_1_alg».proof.Proof.Gen.Kernel.Skeleton
import proofs.«125406_j11914239279650_1_alg».proof.Proof.Gen.Kernel.Launch
import proofs.«125406_j11914239279650_1_alg».proof.Proof.Gen.Kernel.Points
import proofs.«125406_j11914239279650_1_alg».proof.Proof.Gen.Kernel.Frame
import proofs.«125406_j11914239279650_1_alg».proof.Proof.Gen.KernelIdeal
import proofs.«125406_j11914239279650_1_alg».proof.Proof.Gen.KernelIdeal.Skeleton
import proofs.«125406_j11914239279650_1_alg».proof.Proof.Gen.KernelIdeal.Launch
import proofs.«125406_j11914239279650_1_alg».proof.Proof.Gen.KernelIdeal.Points
import proofs.«125406_j11914239279650_1_alg».proof.Proof.Gen.KernelIdeal.Frame
import proofs.«125406_j11914239279650_1_alg».proof.Proof.Gen.ReferenceIdeal
import proofs.«125406_j11914239279650_1_alg».proof.Proof.Gen.ReferenceIdeal.Run
import proofs.«125406_j11914239279650_1_alg».proof.Proof.Gen.ReferenceIdeal.Read
import proofs.«125406_j11914239279650_1_alg».proof.Proof.Gen.Pre_finite_inputs
import proofs.«125406_j11914239279650_1_alg».proof.Proof.Final
import proofs.«125406_j11914239279650_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization is the program's own text read at the ideal instance: nothing to state. -/
theorem preserves : Cert.preserves_Kernel_KernelIdeal := trivial

/-- Both idealized programs end at the layer's value of arguments that agree. -/
theorem algebraic : Cert.algebraic_KernelIdeal_ReferenceIdeal := by
  intro m ρ m' ρ' _ hagree
  refine ⟨fun c => Cert.LowRank.layer (Cert.KernelIdeal.Acc.argX m c) (Cert.KernelIdeal.Acc.argB m c) (Cert.KernelIdeal.Acc.argA m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.stage_eq_layer _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
